-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x45056 : Shape := ⟨3, ![2048, 2, 45056]⟩
abbrev S256x45056 : Shape := ⟨2, ![256, 45056]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S2048x2x45056 : S_.BroadcastsInDim S2048x2x45056 (![] : Fin 0 → Fin S2048x2x45056.rank)
  reducesTo_S2048x2x45056_S_d0_1_2 : S2048x2x45056.ReducesTo [0, 1, 2] S_
  h_S_ : 0 < S_.numel
  bcast_S_S256x45056 : S_.BroadcastsInDim S256x45056 (![] : Fin 0 → Fin S256x45056.rank)
  reducesTo_S256x45056_S_d0_1 : S256x45056.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x32 .f32) (main_arg8 : FVec F S1 .f32) (main_v33 : IVec S_ 1) : IVec S_ 1 :=
  let main_v34 : FVec F S1x32 .f32 := Host.absf main_arg7
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S1x32 .f32) (main_arg8 : FVec F S1 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S2048x2x45056 .f32) (main_arg1 : FVec F S256x45056 .f32) (main_arg2 : FVec F S256 .f32) (main_arg3 : FVec F S32x512 .f32) (main_arg4 : FVec F S32 .f32) (main_arg5 : FVec F S32x32 .f32) (main_arg6 : FVec F S32 .f32) (main_arg7 : FVec F S1x32 .f32) (main_arg8 : FVec F S1 .f32) : IVec S_ 1 :=
  let main_v0 : FVec F S2048x2x45056 .f32 := Host.absf main_arg0
  let main_cst : FVec F S_ .f32 := constant S_ .f32 0x7F800000#32
  let main_v1 : FVec F S2048x2x45056 .f32 := broadcastInDim S2048x2x45056 ![] bcast_S_S2048x2x45056 main_cst
  let main_v2 : IVec S2048x2x45056 1 := cmpf .olt main_v0 main_v1
  let main_c : IVec S_ 1 := constantI S_ 1 1#1
  let main_v3 : IVec S_ 1 := (fun x v => Host.reduce IntOp.andi x v reducesTo_S2048x2x45056_S_d0_1_2 h_S_) main_v2 main_c
  let main_v4 : FVec F S256x45056 .f32 := Host.absf main_arg1
  let main_cst_0 : FVec F S_ .f32 := constant S_ .f32 0x7F800000#32
  let main_v5 : FVec F S256x45056 .f32 := broadcastInDim S256x45056 ![] bcast_S_S256x45056 main_cst_0
  let main_v6 : IVec S256x45056 1 := cmpf .olt main_v4 main_v5
  let main_c_1 : IVec S_ 1 := constantI S_ 1 1#1
  let main_v7 : IVec S_ 1 := (fun x v => Host.reduce IntOp.andi x v reducesTo_S256x45056_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_arg8 main_v13 main_v16
-- ==== Kernel.lean ====
abbrev S2048x2x45056 : Shape := ⟨3, ![2048, 2, 45056]⟩
abbrev S256x45056 : Shape := ⟨2, ![256, 45056]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S2048x1 : Shape := ⟨2, ![2048, 1]⟩
abbrev S1024x2x512 : Shape := ⟨3, ![1024, 2, 512]⟩
abbrev S256x512 : Shape := ⟨2, ![256, 512]⟩
abbrev S1024x1 : Shape := ⟨2, ![1024, 1]⟩
abbrev S1024x256 : Shape := ⟨2, ![1024, 256]⟩
abbrev S1024x1x512 : Shape := ⟨3, ![1024, 1, 512]⟩
abbrev S1024x512 : Shape := ⟨2, ![1024, 512]⟩
abbrev S512x256 : Shape := ⟨2, ![512, 256]⟩
abbrev S1x256 : Shape := ⟨2, ![1, 256]⟩
abbrev S512x32 : Shape := ⟨2, ![512, 32]⟩
abbrev S1024x32 : Shape := ⟨2, ![1024, 32]⟩
abbrev S32x1 : Shape := ⟨2, ![32, 1]⟩
abbrev S1x1 : Shape := ⟨2, ![1, 1]⟩

abbrev nBuf : Space → Nat
  | .hbm => 10
  | .vmem => 15
  | .smem => 0
  | _ => 0

abbrev bufTy : (tb : Table) → Fin (tcTables nBuf tb) → BufTy
  | .hbm, ⟨0, _⟩ => ⟨S2048x2x45056, .f32⟩
  | .hbm, ⟨1, _⟩ => ⟨S256x45056, .f32⟩
  | .hbm, ⟨2, _⟩ => ⟨S256, .f32⟩
  | .hbm, ⟨3, _⟩ => ⟨S32x512, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S2048x1, .f32⟩
  | .local _ .vmem, ⟨0, _⟩ => ⟨S1024x2x512, .f32⟩
  | .local _ .vmem, ⟨1, _⟩ => ⟨S1024x2x512, .f32⟩
  | .local _ .vmem, ⟨2, _⟩ => ⟨S256x512, .f32⟩
  | .local _ .vmem, ⟨3, _⟩ => ⟨S256x512, .f32⟩
  | .local _ .vmem, ⟨4, _⟩ => ⟨S256, .f32⟩
  | .local _ .vmem, ⟨5, _⟩ => ⟨S32x512, .f32⟩
  | .local _ .vmem, ⟨6, _⟩ => ⟨S32, .f32⟩
  | .local _ .vmem, ⟨7, _⟩ => ⟨S32x32, .f32⟩
  | .local _ .vmem, ⟨8, _⟩ => ⟨S32, .f32⟩
  | .local _ .vmem, ⟨9, _⟩ => ⟨S1x32, .f32⟩
  | .local _ .vmem, ⟨10, _⟩ => ⟨S1, .f32⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | .local _ .vmem, ⟨14, _⟩ => ⟨S1024x256, .f32⟩
  | _, _ => ⟨S2048x2x45056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 88], ![false, false]⟩

def k0_cond2 (i : grid0.Coords) : BitVec 1 :=
  let arg1 : BitVec 32 := BitVec.ofNat 32 (i 1).val
  let c87_i32 : BitVec 32 := 87#32
  let v26 : BitVec 1 := Scalar.cmpi .eq arg1 c87_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2x512_S1024x2x512_0_0_0 : ∀ a, (![0, 0, 0] : Fin 3 → Nat) a + S1024x2x512.size a ≤ S1024x2x512.size a
  h_S1024x2x512 : 0 < S1024x2x512.numel
  slices_S1024x2x512_o0_0_0_S1024x1x512 : S1024x2x512.Slices ![0, 0, 0] S1024x1x512
  shapeCasts_S1024x1x512_S1024x512 : S1024x1x512.ShapeCasts S1024x512
  bitsLt_bf16_f32 : FTy.bits .bf16 < FTy.bits .f32
  slices_S1024x2x512_o0_1_0_S1024x1x512 : S1024x2x512.Slices ![0, 1, 0] S1024x1x512
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  concatenates_S1024x256_S1024x256_S1024x512_d1 : Shape.Concatenates [S1024x256, S1024x256] S1024x512 1
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x512_S512x256_S1024x256_1_0_0_1_n_n_wf : DotDims.WF S1024x512 S512x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x512.size a ≤ S2048x2x45056.size a
  hwx0_0 : ∀ i : grid0.Coords, EltTy.bits .f32 = 32 ∨ (Rect.block (s := S2048x2x45056) S1024x2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x45056.size a
  hwx0_1 : ∀ i : grid0.Coords, EltTy.bits .f32 = 32 ∨ (Rect.block (s := S256x45056) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S2048x1.size a
  hwx0_9 : ∀ i : grid0.Coords, EltTy.bits .f32 = 32 ∨ (Rect.block (s := S2048x1) S1024x1.size (cc0_transform_9 i) (hinb0_9 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2048x2x45056 : Shape := ⟨3, ![2048, 2, 45056]⟩
abbrev S256x45056 : Shape := ⟨2, ![256, 45056]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S2048x1x45056 : Shape := ⟨3, ![2048, 1, 45056]⟩
abbrev S2048x45056 : Shape := ⟨2, ![2048, 45056]⟩
abbrev S2048x256 : Shape := ⟨2, ![2048, 256]⟩
abbrev S1x256 : Shape := ⟨2, ![1, 256]⟩
abbrev S_ : Shape := ⟨0, ![]⟩
abbrev S2048x512 : Shape := ⟨2, ![2048, 512]⟩
abbrev S512x32 : Shape := ⟨2, ![512, 32]⟩
abbrev S2048x32 : Shape := ⟨2, ![2048, 32]⟩
abbrev S32x1 : Shape := ⟨2, ![32, 1]⟩
abbrev S2048x1 : Shape := ⟨2, ![2048, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x2x45056, .f32⟩
  | .hbm, ⟨1, _⟩ => ⟨S256x45056, .f32⟩
  | .hbm, ⟨2, _⟩ => ⟨S256, .f32⟩
  | .hbm, ⟨3, _⟩ => ⟨S32x512, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S2048x1x45056, .f32⟩
  | .hbm, ⟨10, _⟩ => ⟨S2048x45056, .f32⟩
  | .hbm, ⟨11, _⟩ => ⟨S2048x256, .f32⟩
  | .hbm, ⟨12, _⟩ => ⟨S1x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x1x45056, .f32⟩
  | .hbm, ⟨19, _⟩ => ⟨S2048x45056, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x512, .f32⟩
  | .hbm, ⟨28, _⟩ => ⟨S512x32, .f32⟩
  | .hbm, ⟨29, _⟩ => ⟨S2048x32, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S_, .f32⟩
  | .hbm, ⟨34, _⟩ => ⟨S2048x32, .f32⟩
  | .hbm, ⟨35, _⟩ => ⟨S2048x32, .f32⟩
  | .hbm, ⟨36, _⟩ => ⟨S32x32, .f32⟩
  | .hbm, ⟨37, _⟩ => ⟨S2048x32, .f32⟩
  | .hbm, ⟨38, _⟩ => ⟨S1x32, .f32⟩
  | .hbm, ⟨39, _⟩ => ⟨S2048x32, .f32⟩
  | .hbm, ⟨40, _⟩ => ⟨S2048x32, .f32⟩
  | .hbm, ⟨41, _⟩ => ⟨S_, .f32⟩
  | .hbm, ⟨42, _⟩ => ⟨S2048x32, .f32⟩
  | .hbm, ⟨43, _⟩ => ⟨S2048x32, .f32⟩
  | .hbm, ⟨44, _⟩ => ⟨S32x1, .f32⟩
  | .hbm, ⟨45, _⟩ => ⟨S2048x1, .f32⟩
  | .hbm, ⟨46, _⟩ => ⟨S1x1, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | _, _ => ⟨S2048x2x45056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_cst : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call3_cst : Ref sig .tc := ⟨.hbm, 41, rfl⟩
abbrev main_call3_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_cst_0 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  slices_S2048x2x45056_S2048x1x45056_0_0_0 : S2048x2x45056.Slices ![0, 0, 0] S2048x1x45056
  shapeCasts_S2048x1x45056_S2048x45056 : S2048x1x45056.ShapeCasts S2048x45056
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  slices_S2048x2x45056_S2048x1x45056_0_1_0 : S2048x2x45056.Slices ![0, 1, 0] S2048x1x45056
  concatenates_S2048x256_S2048x256_S2048x512_d1 : Shape.Concatenates [S2048x256, S2048x256] S2048x512 1
  transposes_S32x512_S512x32_1_0 : S32x512.Transposes [1, 0] S512x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  dot_S2048x45056_S256x45056_S2048x256_1_1_0_0_n_n_wf : DotDims.WF S2048x45056 S256x45056 S2048x256 [1] [1] [0] [0] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []

variable [Facts₀]

def dot_S2048x45056_S256x45056_S2048x256_1_1_0_0_n_n : DotDims S2048x45056 S256x45056 S2048x256 where
  lhsContracting := [1]
  rhsContracting := [1]
  lhsNonContracting := [0]
  rhsNonContracting := [0]
  lhsBatch := []
  rhsBatch := []
  wf := dot_S2048x45056_S256x45056_S2048x256_1_1_0_0_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.Pieces.lean ====
/-
  What one run of the kernel body leaves behind, case by case, as plain terms of what it loaded.

  The body keeps two running sums in scratch memory. At the first point of a batch tile it stores zeros into
  both and then adds the point's two products (so it leaves the products added to zero); at every later point
  it adds the point's products to what the point before left; at the tile's last point it also stores the
  output block: the rest of the network applied to the two sums it has just updated. Each store covers its
  whole buffer, so what a buffer holds afterwards is the last value stored into it.
-/
import proofs.«172723_j43525198578243_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A tile's first point leaves in the first running sum the point's product added to the zero reset. -/
theorem sumA0 (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : cond0_0 i) (hc1 : ¬cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S1024x256) hz2]
  simp only [View.readAt_eq_ld, harg2.read_unread, harg3.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

/-- … and the same in the second running sum. -/
theorem sumA1 (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : cond0_0 i) (hc1 : ¬cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay5 x0 x1 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S1024x256) hz2]
  simp only [View.readAt_eq_ld, harg2.read_unread, harg3.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

/-- A middle point adds its product to what the point before left in the first running sum. -/
theorem sumB0 (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : ¬cond0_0 i) (hc1 : ¬cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) (xs0 xs1 : Vec F S1024x256 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz2]
  simp only [View.readAt_eq_ld, harg2.read_unread, harg3.read_unread, harg12.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

/-- … and to the second. -/
theorem sumB1 (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : ¬cond0_0 i) (hc1 : ¬cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) (xs0 xs1 : Vec F S1024x256 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz2]
  simp only [View.readAt_eq_ld, harg2.read_unread, harg3.read_unread, harg13.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

/-- A tile's last point updates the first running sum as a middle point does. -/
theorem sumC0 (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : ¬cond0_0 i) (hc1 : cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) (xs0 xs1 : Vec F S1024x256 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg12.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

/-- … and the second. -/
theorem sumC1 (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : ¬cond0_0 i) (hc1 : cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) (xs0 xs1 : Vec F S1024x256 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x0 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg13.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

/-- The output block a tile's last point stores: the rest of the network on the two sums it has just updated. -/
theorem outC (c : Dev nD) (i : grid0.Coords) (arg2 : Memref sig .tc .vmem S1024x2x512 .f32) (harg2 : arg2.IsWhole) (arg3 : Memref sig .tc .vmem S256x512 .f32) (harg3 : arg3.IsWhole) (arg4 : Memref sig .tc .vmem S256 .f32) (harg4 : arg4.IsWhole) (arg5 : Memref sig .tc .vmem S32x512 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S1x32 .f32) (harg9 : arg9.IsWhole) (arg10 : Memref sig .tc .vmem S1 .f32) (harg10 : arg10.IsWhole) (arg11 : Memref sig .tc .vmem S1024x1 .f32) (harg11 : arg11.IsWhole) (arg12 : Memref sig .tc .vmem S1024x256 .f32) (harg12 : arg12.IsWhole) (arg13 : Memref sig .tc .vmem S1024x256 .f32) (harg13 : arg13.IsWhole) (hc0 : ¬cond0_0 i) (hc1 : cond0_1 i) (x0 : Vec F S1024x2x512 .f32) (x1 : Vec F S256x512 .f32) (x2 : Vec F S256 .f32) (x3 : Vec F S32x512 .f32) (x4 : Vec F S32 .f32) (x5 : Vec F S32x32 .f32) (x6 : Vec F S32 .f32) (x7 : Vec F S1x32 .f32) (x8 : Vec F S1 .f32) (xs0 xs1 : Vec F S1024x256 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay6 (k0_pay7 x2 (k0_pay4 x0 x1 xs0) (k0_pay5 x0 x1 xs1) x3 x4 x5 x6 x7) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.readCov_unit_zero (S := S1024x256) _ hz2, View.ld_unit_zero (S := S1024x2x512) hz3, View.ld_unit_zero (S := S256x512) hz2, View.ld_unit_zero (S := S1024x256) hz2, View.ld_unit_zero (S := S256) hz1, View.ld_unit_zero (S := S32x512) hz2, View.ld_unit_zero (S := S32) hz1, View.ld_unit_zero (S := S32x32) hz2, View.ld_unit_zero (S := S1x32) hz2, View.ld_unit_zero (S := S1) hz1]

end Cert.KernelIdeal.Pieces

end
-- ==== Proof.Blocks.lean ====
/-
  Which elements of the argument arrays a grid point's input blocks hold.

  The grid has two batch tiles of 1024 rows and 88 feature tiles of 512 columns; point `t` is batch tile `t / 88`
  and feature tile `t % 88`. The point's block of the input holds rows `1024 · (t / 88) + r`, both perspectives, and
  features `512 · (t % 88) + j`; its block of the front weights holds all 256 rows and the same features; the
  seven small operands are staged whole.
-/
import proofs.«172723_j43525198578243_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The printed index maps over the grid: the batch tile and the feature tile of a point. -/
theorem idx_facts : ∀ t : Fin cfg0.N,
    win0_0.index t (0 : Fin 3) = t.val / 88 ∧ win0_0.index t (1 : Fin 3) = 0 ∧ win0_0.index t (2 : Fin 3) = t.val % 88
    ∧ win0_1.index t (0 : Fin 2) = 0 ∧ win0_1.index t (1 : Fin 2) = t.val % 88
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val / 88 ∧ win0_9.index t (1 : Fin 2) = 0 :=
  (by decide +kernel : ∀ t : Fin grid0.N, _)

/-- The point's blocks, named at their literal types. -/
abbrev xblk (c : Dev nD) (t : Fin cfg0.N) : Vec F S1024x2x512 .f32 := iblk m c 0 t
abbrev w1blk (c : Dev nD) (t : Fin cfg0.N) : Vec F S256x512 .f32 := iblk m c 1 t
abbrev b1blk (c : Dev nD) (t : Fin cfg0.N) : Vec F S256 .f32 := iblk m c 2 t
abbrev w2blk (c : Dev nD) (t : Fin cfg0.N) : Vec F S32x512 .f32 := iblk m c 3 t
abbrev b2blk (c : Dev nD) (t : Fin cfg0.N) : Vec F S32 .f32 := iblk m c 4 t
abbrev w3blk (c : Dev nD) (t : Fin cfg0.N) : Vec F S32x32 .f32 := iblk m c 5 t
abbrev b3blk (c : Dev nD) (t : Fin cfg0.N) : Vec F S32 .f32 := iblk m c 6 t
abbrev w4blk (c : Dev nD) (t : Fin cfg0.N) : Vec F S1x32 .f32 := iblk m c 7 t
abbrev b4blk (c : Dev nD) (t : Fin cfg0.N) : Vec F S1 .f32 := iblk m c 8 t

/-- The arrays as the region finds them, at their literal types. -/
abbrev xarr (c : Dev nD) : Vec F S2048x2x45056 .f32 := V m c main_arg0
abbrev w1arr (c : Dev nD) : Vec F S256x45056 .f32 := V m c main_arg1
abbrev b1arr (c : Dev nD) : Vec F S256 .f32 := V m c main_arg2
abbrev w2arr (c : Dev nD) : Vec F S32x512 .f32 := V m c main_arg3
abbrev b2arr (c : Dev nD) : Vec F S32 .f32 := V m c main_arg4
abbrev w3arr (c : Dev nD) : Vec F S32x32 .f32 := V m c main_arg5
abbrev b3arr (c : Dev nD) : Vec F S32 .f32 := V m c main_arg6
abbrev w4arr (c : Dev nD) : Vec F S1x32 .f32 := V m c main_arg7
abbrev b4arr (c : Dev nD) : Vec F S1 .f32 := V m c main_arg8

/-- The input block at `(r, p, j)` is the input at row `1024 · (t / 88) + r`, perspective `p`, feature `512 · (t % 88) + j`. -/
theorem xblk_apply (c : Dev nD) (t : Fin cfg0.N) (r : Fin 1024) (p : Fin 2) (j : Fin 512) (R : Fin 2048) (f : Fin 45056)
    (hR : R.val = 1024 * (t.val / 88) + r.val) (hf : f.val = 512 * (t.val % 88) + j.val) :
    xblk m c t (ix3 r p j) = xarr m c (ix3 R p f) := by
  show V m c main_arg0 (((cfg0.win 0).blk t).view.emb (ix3 r p j)) = V m c main_arg0 (ix3 R p f)
  obtain ⟨e0, e1, e2, -⟩ := idx_facts t
  refine congrArg (V m c main_arg0) (funext fun a => Fin.ext ?_)
  match a with
  | ⟨0, _⟩ => show win0_0.index t (0 : Fin 3) * 1024 + 1 * r.val = R.val; omega
  | ⟨1, _⟩ => show win0_0.index t (1 : Fin 3) * 2 + 1 * p.val = p.val; omega
  | ⟨2, _⟩ => show win0_0.index t (2 : Fin 3) * 512 + 1 * j.val = f.val; omega

/-- The front weights' block at `(o, j)` is the weight of unit `o` at feature `512 · (t % 88) + j`. -/
theorem w1blk_apply (c : Dev nD) (t : Fin cfg0.N) (o : Fin 256) (j : Fin 512) (f : Fin 45056)
    (hf : f.val = 512 * (t.val % 88) + j.val) :
    w1blk m c t (ix2 o j) = w1arr m c (ix2 o f) := by
  show V m c main_arg1 (((cfg0.win 1).blk t).view.emb (ix2 o j)) = V m c main_arg1 (ix2 o f)
  obtain ⟨-, -, -, e0, e1, -⟩ := idx_facts t
  refine congrArg (V m c main_arg1) (funext fun a => Fin.ext ?_)
  match a with
  | ⟨0, _⟩ => show win0_1.index t (0 : Fin 2) * 256 + 1 * o.val = o.val; omega
  | ⟨1, _⟩ => show win0_1.index t (1 : Fin 2) * 512 + 1 * j.val = f.val; omega

/-- The seven small operands' blocks are the operands. -/
theorem b1blk_eq (c : Dev nD) (t : Fin cfg0.N) : b1blk m c t = b1arr m c := by
  funext y
  show V m c main_arg2 (((cfg0.win 2).blk t).view.emb y) = V m c main_arg2 y
  obtain ⟨-, -, -, -, -, e0, -⟩ := idx_facts t
  refine congrArg (V m c main_arg2) (funext fun a => Fin.ext ?_)
  match a with
  | ⟨0, _⟩ => show win0_2.index t (0 : Fin 1) * 256 + 1 * (y 0).val = (y 0).val; omega

theorem w2blk_eq (c : Dev nD) (t : Fin cfg0.N) : w2blk m c t = w2arr m c := by
  funext y
  show V m c main_arg3 (((cfg0.win 3).blk t).view.emb y) = V m c main_arg3 y
  obtain ⟨-, -, -, -, -, -, e0, e1, -⟩ := idx_facts t
  refine congrArg (V m c main_arg3) (funext fun a => Fin.ext ?_)
  match a with
  | ⟨0, _⟩ => show win0_3.index t (0 : Fin 2) * 32 + 1 * (y 0).val = (y 0).val; omega
  | ⟨1, _⟩ => show win0_3.index t (1 : Fin 2) * 512 + 1 * (y 1).val = (y 1).val; omega

theorem b2blk_eq (c : Dev nD) (t : Fin cfg0.N) : b2blk m c t = b2arr m c := by
  funext y
  show V m c main_arg4 (((cfg0.win 4).blk t).view.emb y) = V m c main_arg4 y
  obtain ⟨-, -, -, -, -, -, -, -, e0, -⟩ := idx_facts t
  refine congrArg (V m c main_arg4) (funext fun a => Fin.ext ?_)
  match a with
  | ⟨0, _⟩ => show win0_4.index t (0 : Fin 1) * 32 + 1 * (y 0).val = (y 0).val; omega

theorem w3blk_eq (c : Dev nD) (t : Fin cfg0.N) : w3blk m c t = w3arr m c := by
  funext y
  show V m c main_arg5 (((cfg0.win 5).blk t).view.emb y) = V m c main_arg5 y
  obtain ⟨-, -, -, -, -, -, -, -, -, e0, e1, -⟩ := idx_facts t
  refine congrArg (V m c main_arg5) (funext fun a => Fin.ext ?_)
  match a with
  | ⟨0, _⟩ => show win0_5.index t (0 : Fin 2) * 32 + 1 * (y 0).val = (y 0).val; omega
  | ⟨1, _⟩ => show win0_5.index t (1 : Fin 2) * 32 + 1 * (y 1).val = (y 1).val; omega

theorem b3blk_eq (c : Dev nD) (t : Fin cfg0.N) : b3blk m c t = b3arr m c := by
  funext y
  show V m c main_arg6 (((cfg0.win 6).blk t).view.emb y) = V m c main_arg6 y
  obtain ⟨-, -, -, -, -, -, -, -, -, -, -, e0, -⟩ := idx_facts t
  refine congrArg (V m c main_arg6) (funext fun a => Fin.ext ?_)
  match a with
  | ⟨0, _⟩ => show win0_6.index t (0 : Fin 1) * 32 + 1 * (y 0).val = (y 0).val; omega

theorem w4blk_eq (c : Dev nD) (t : Fin cfg0.N) : w4blk m c t = w4arr m c := by
  funext y
  show V m c main_arg7 (((cfg0.win 7).blk t).view.emb y) = V m c main_arg7 y
  obtain ⟨-, -, -, -, -, -, -, -, -, -, -, -, e0, e1, -⟩ := idx_facts t
  refine congrArg (V m c main_arg7) (funext fun a => Fin.ext ?_)
  match a with
  | ⟨0, _⟩ => show win0_7.index t (0 : Fin 2) * 1 + 1 * (y 0).val = (y 0).val; omega
  | ⟨1, _⟩ => show win0_7.index t (1 : Fin 2) * 32 + 1 * (y 1).val = (y 1).val; omega

theorem b4blk_eq (c : Dev nD) (t : Fin cfg0.N) : b4blk m c t = b4arr m c := by
  funext y
  show V m c main_arg8 (((cfg0.win 8).blk t).view.emb y) = V m c main_arg8 y
  obtain ⟨-, -, -, -, -, -, -, -, -, -, -, -, -, -, e0, -⟩ := idx_facts t
  refine congrArg (V m c main_arg8) (funext fun a => Fin.ext ?_)
  match a with
  | ⟨0, _⟩ => show win0_8.index t (0 : Fin 1) * 1 + 1 * (y 0).val = (y 0).val; omega

end Cert.KernelIdeal.Blocks

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Spec.lean ====
/-
  The network both programs compute, one batch row at a time, on the extended reals.

  A row of the batch carries two perspectives of 45056 features. The front layer applies the same 256 × 45056
  weight matrix to each perspective (two dot products per output unit), adds the front bias and clips at zero;
  the two 256-vectors are laid side by side into 512 activations; three dense layers follow (512 → 32 → 32 → 1),
  the first two clipped at zero, the last passed through the logistic function.

  `head` is that function of the two rows of front-layer dot products, `net` the whole result array as a function
  of the nine argument arrays; `sum_tiles` is the one regrouping the
  comparison needs: a sum over the 45056 features is the sum over 88 tiles of 512 consecutive features of the
  tiles' sums (addition on the extended reals is commutative and associative, so no finiteness is used).
-/
import Idealize.ShloMosaic.PureOps.Ideal
import Idealize.ShloMosaic.Lib.ValueIdx
import Mathlib.Algebra.BigOperators.Fin
import Mathlib.Logic.Equiv.Fin.Basic

open scoped BigOperators

noncomputable section

namespace Cert.Nnue

open Idealize.ShloMosaic Idealize.ShloMosaic.ValueIdx

/-- Clipping at zero. -/
def relu (x : EReal) : EReal := max x 0

/-- One dense layer on a row: unit `j` is the dot product of the row with the `j`-th weight row, plus its bias. -/
def dense {n k : Nat} (W : Fin n → Fin k → EReal) (b : Fin n → EReal) (v : Fin k → EReal) (j : Fin n) : EReal :=
  (∑ c : Fin k, v c * W j c) + b j

/-- Two 256-vectors laid side by side. -/
def sideBySide (u v : Fin 256 → EReal) (c : Fin 512) : EReal :=
  if h : c.val < 256 then u ⟨c.val, h⟩ else v ⟨c.val - 256, by have := c.isLt; omega⟩

/-- The front layer's activations of one perspective: dot products plus bias, clipped. -/
def front (p b1 : Fin 256 → EReal) (o : Fin 256) : EReal := relu (p o + b1 o)

/-- The network's output for one row, from the two perspectives' front-layer dot products. -/
def head (p0 p1 b1 : Fin 256 → EReal) (W2 : Fin 32 → Fin 512 → EReal) (b2 : Fin 32 → EReal)
    (W3 : Fin 32 → Fin 32 → EReal) (b3 : Fin 32 → EReal) (W4 : Fin 1 → Fin 32 → EReal) (b4 : Fin 1 → EReal) : EReal :=
  Ideal.logistic (dense W4 b4
    (fun i => relu (dense W3 b3
      (fun j => relu (dense W2 b2 (sideBySide (front p0 b1) (front p1 b1)) j)) i)) 0)

/-- Row `b` of the result, from the nine argument arrays: the front layer's dot products run over all 45056
    features of the row's two perspectives. -/
def netRow (x : (⟨3, ![2048, 2, 45056]⟩ : Shape).Idx → EReal) (W1 : (⟨2, ![256, 45056]⟩ : Shape).Idx → EReal)
    (b1 : (⟨1, ![256]⟩ : Shape).Idx → EReal) (W2 : (⟨2, ![32, 512]⟩ : Shape).Idx → EReal)
    (b2 : (⟨1, ![32]⟩ : Shape).Idx → EReal) (W3 : (⟨2, ![32, 32]⟩ : Shape).Idx → EReal)
    (b3 : (⟨1, ![32]⟩ : Shape).Idx → EReal) (W4 : (⟨2, ![1, 32]⟩ : Shape).Idx → EReal)
    (b4 : (⟨1, ![1]⟩ : Shape).Idx → EReal) (b : Fin 2048) : EReal :=
  head (fun o => ∑ f : Fin 45056, x (ix3 b (0 : Fin 2) f) * W1 (ix2 o f))
    (fun o => ∑ f : Fin 45056, x (ix3 b (1 : Fin 2) f) * W1 (ix2 o f))
    (fun o => b1 (ix1 o)) (fun j c => W2 (ix2 j c)) (fun j => b2 (ix1 j))
    (fun i j => W3 (ix2 i j)) (fun i => b3 (ix1 i)) (fun a i => W4 (ix2 a i)) (fun a => b4 (ix1 a))

/-- The result array [2048, 1] as a function of the nine argument arrays. -/
def net (x : (⟨3, ![2048, 2, 45056]⟩ : Shape).Idx → EReal) (W1 : (⟨2, ![256, 45056]⟩ : Shape).Idx → EReal)
    (b1 : (⟨1, ![256]⟩ : Shape).Idx → EReal) (W2 : (⟨2, ![32, 512]⟩ : Shape).Idx → EReal)
    (b2 : (⟨1, ![32]⟩ : Shape).Idx → EReal) (W3 : (⟨2, ![32, 32]⟩ : Shape).Idx → EReal)
    (b3 : (⟨1, ![32]⟩ : Shape).Idx → EReal) (W4 : (⟨2, ![1, 32]⟩ : Shape).Idx → EReal)
    (b4 : (⟨1, ![1]⟩ : Shape).Idx → EReal) : (⟨2, ![2048, 1]⟩ : Shape).Idx → EReal :=
  fun i => netRow x W1 b1 W2 b2 W3 b3 W4 b4 ⟨(i 0).val, idx2_lt0 i⟩

/-- A sum over 45056 consecutive positions, regrouped into 88 tiles of 512. -/
theorem sum_tiles (g : ℕ → EReal) :
    ∑ f : Fin 45056, g f.val = ∑ s ∈ Finset.range 88, ∑ j : Fin 512, g (512 * s + j.val) := by
  rw [← Fin.sum_univ_eq_sum_range (fun s => ∑ j : Fin 512, g (512 * s + j.val)) 88]
  rw [← Fintype.sum_prod_type' (f := fun (s : Fin 88) (j : Fin 512) => g (512 * s.val + j.val))]
  rw [← Equiv.sum_comp (finProdFinEquiv (m := 88) (n := 512)) (fun f : Fin (88 * 512) => g f.val)]
  refine Finset.sum_congr rfl fun x _ => ?_
  show g (x.2.val + 512 * x.1.val) = g (512 * x.1.val + x.2.val)
  rw [Nat.add_comm]

end Cert.Nnue

end
-- ==== Proof.KTail.lean ====
/-
  The kernel body's arithmetic, read one element at a time at the ideal values.

  At a grid point the body adds to each of its two running sums (one per perspective) the product of the point's
  1024 × 512 slice of that perspective with the transposed 256 × 512 weight tile: element `(r, o)` grows by
  `∑ j, x (r, p, j) · w (o, j)`. At a batch tile's last point it applies the rest of the network to the finished
  sums, row by row: element `(r, 0)` of the stored block is `Nnue.head` of row `r` of the two sums. A change of
  float format is the identity at the ideal values, a matrix product into the zero splat is the plain sum over
  the contracted axis, and the transposes, broadcasts and the concatenation only re-index.
-/
import proofs.«172723_j43525198578243_1_alg».proof.Proof.Gen.KernelIdeal.Skeleton
import proofs.«172723_j43525198578243_1_alg».proof.Proof.LibPlainDot
import proofs.«172723_j43525198578243_1_alg».proof.Proof.Spec
import Idealize.ShloMosaic.Lib.Pipeline.Value
import Idealize.ShloMosaic.Lib.ValueIdx
import Idealize.ShloMosaic.PureOps.Ideal.Laws

open scoped BigOperators

noncomputable section

namespace Cert.KernelIdeal.Body

open Idealize.ShloMosaic Idealize.ShloMosaic.ValueIdx Cert.KernelIdeal Cert.KernelIdeal.Gen Cert.Nnue

/-- The zero word, splat and recast to its own shape, is zero everywhere. -/
private theorem zero_splat (i : S1024x256.Idx) :
    shapeCast S1024x256 (broadcast S1024x256 (Ideal.ofBits .f32 0x00000000#32)) shapeCasts_S1024x256_S1024x256 i
      = (0 : EReal) := by
  rw [shapeCast_self]
  exact Ideal.ofBits_zero_f32

/-- The slice of the three-axis block at position `p` of its middle axis, viewed as a matrix, reads the block at
    `(r, p, k)`. -/
private theorem slice_matrix (off : Fin 3 → Nat) (h : S1024x2x512.Slices off S1024x1x512) (p : Fin 2)
    (h0 : off 0 = 0) (h1 : off 1 = p.val) (h2 : off 2 = 0) (x : FVec Ideal S1024x2x512 .f32) (r : Fin 1024)
    (k : Fin 512) :
    shapeCast S1024x512 (extractStridedSlice S1024x1x512 off x h) shapeCasts_S1024x1x512_S1024x512 (ix2 r k)
      = x (ix3 r p k) := by
  refine (shapeCast_apply _ shapeCasts_S1024x1x512_S1024x512 (ix2 r k) (ix3 r (0 : Fin 1) k) ?_).trans ?_
  · rw [Shape.rowMajor_val_three, Shape.rowMajor_val_two]
    show (r.val * 1 + 0) * 512 + k.val = r.val * 512 + k.val
    omega
  · exact extractStridedSlice_apply off x h (ix3 r (0 : Fin 1) k) (ix3 r p k) fun a => match a with
      | ⟨0, _⟩ => by show r.val = off 0 + r.val; omega
      | ⟨1, _⟩ => by show p.val = off 1 + 0; omega
      | ⟨2, _⟩ => by show k.val = off 2 + k.val; omega

/-- The front layer's product into the zero splat: row `r` of the left operand against row `o` of the weight tile
    (the right operand is the tile transposed). -/
private theorem mm_front (A : FVec Ideal S1024x512 .bf16) (B : FVec Ideal S256x512 .bf16) (r : Fin 1024) (o : Fin 256) :
    matmul dot_S1024x512_S512x256_S1024x256_1_0_0_1_n_n none A
        (transpose S512x256 [1, 0] B transposes_S256x512_p1_0_S512x256) (constant S1024x256 .f32 0x00000000#32) (ix2 r o)
      = ∑ c : Fin 512, A (ix2 r c) * B (ix2 o c) := by
  rw [PlainDot.matmul_zero_apply dot_S1024x512_S512x256_S1024x256_1_0_0_1_n_n rfl rfl rfl rfl rfl rfl rfl rfl]
  refine Finset.sum_congr rfl fun c _ => ?_
  congr 1
  exact transpose_apply [1, 0] B transposes_S256x512_p1_0_S512x256 (ix2 c o) (ix2 o c) fun b => match b with
    | ⟨0, _⟩ => rfl
    | ⟨1, _⟩ => rfl

/-- The first running sum's reset value is zero everywhere. -/
theorem zero0_apply (i : S1024x256.Idx) : k0_pay1 (F := Ideal) i = 0 := by
  unfold k0_pay1
  exact zero_splat i

/-- The second running sum's reset value is zero everywhere. -/
theorem zero1_apply (i : S1024x256.Idx) : k0_pay2 (F := Ideal) i = 0 := by
  unfold k0_pay2
  exact zero_splat i

/-- One point's update of the first running sum (perspective 0). -/
theorem acc0_apply (v3 : Vec Ideal S1024x2x512 .f32) (v10 : Vec Ideal S256x512 .f32) (v12 : Vec Ideal S1024x256 .f32)
    (r : Fin 1024) (o : Fin 256) :
    k0_pay4 v3 v10 v12 (ix2 r o) = v12 (ix2 r o) + ∑ j : Fin 512, v3 (ix3 r (0 : Fin 2) j) * v10 (ix2 o j) := by
  unfold k0_pay4 k0_pay3
  rw [shapeCast_self]
  refine congrArg (v12 (ix2 r o) + ·) ?_
  refine (mm_front _ _ r o).trans ?_
  refine Finset.sum_congr rfl fun j _ => ?_
  refine congrArg (· * v10 (ix2 o j)) ?_
  exact slice_matrix ![0, 0, 0] slices_S1024x2x512_o0_0_0_S1024x1x512 0 rfl rfl rfl v3 r j

/-- One point's update of the second running sum (perspective 1). -/
theorem acc1_apply (v3 : Vec Ideal S1024x2x512 .f32) (v10 : Vec Ideal S256x512 .f32) (v19 : Vec Ideal S1024x256 .f32)
    (r : Fin 1024) (o : Fin 256) :
    k0_pay5 v3 v10 v19 (ix2 r o) = v19 (ix2 r o) + ∑ j : Fin 512, v3 (ix3 r (1 : Fin 2) j) * v10 (ix2 o j) := by
  unfold k0_pay5 k0_pay3
  rw [shapeCast_self]
  refine congrArg (v19 (ix2 r o) + ·) ?_
  refine (mm_front _ _ r o).trans ?_
  refine Finset.sum_congr rfl fun j _ => ?_
  refine congrArg (· * v10 (ix2 o j)) ?_
  exact slice_matrix ![0, 1, 0] slices_S1024x2x512_o0_1_0_S1024x1x512 1 rfl rfl rfl v3 r j

/-- Clipping at zero: the maximum with the splat of the zero word. -/
private theorem relu_apply {s : Shape} (x : FVec Ideal s .f32) (i : s.Idx) :
    maximumf x (broadcast s (Scalar.ofBits (F := Ideal) .f32 0x00000000#32)) i = relu (x i) := by
  show max (x i) (Ideal.ofBits .f32 0x00000000#32) = max (x i) 0
  rw [Ideal.ofBits_zero_f32]

/-- A bias vector, viewed as one row and repeated down the rows, added to a matrix: element `(r, j)` grows by the
    bias's `j`-th entry. -/
private theorem bias_row {n : Nat} (hc : (⟨1, ![n]⟩ : Shape).ShapeCasts ⟨2, ![1, n]⟩)
    (hb : (⟨2, ![1, n]⟩ : Shape).Broadcasts ⟨2, ![1024, n]⟩) (acc : FVec Ideal ⟨2, ![1024, n]⟩ .f32)
    (b : FVec Ideal ⟨1, ![n]⟩ .f32) (r : Fin 1024) (j : Fin n) :
    addf acc (broadcastTo ⟨2, ![1024, n]⟩ (shapeCast ⟨2, ![1, n]⟩ b hc) hb) (ix2 r j) = acc (ix2 r j) + b (ix1 j) := by
  show acc (ix2 r j) + broadcastTo ⟨2, ![1024, n]⟩ (shapeCast ⟨2, ![1, n]⟩ b hc) hb (ix2 r j) = _
  refine congrArg (acc (ix2 r j) + ·) ?_
  refine (broadcastTo_apply _ hb (ix2 r j) (ix2 (0 : Fin 1) j) fun a => match a with
    | ⟨0, _⟩ => by show 0 = if (1 : Nat) = 1 then 0 else r.val; rw [if_pos rfl]
    | ⟨1, _⟩ => by
      show j.val = if n = 1 then 0 else j.val
      have := j.isLt
      split <;> omega).trans ?_
  refine shapeCast_apply b hc (ix2 (0 : Fin 1) j) (ix1 j) ?_
  rw [Shape.rowMajor_val_one, Shape.rowMajor_val_two]
  show j.val = 0 * n + j.val
  omega

section Dense

variable {K N : Nat} (d : DotDims ⟨2, ![1024, K]⟩ ⟨2, ![K, N]⟩ ⟨2, ![1024, N]⟩)
  (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- A product into the zero splat whose right operand is a transposed weight matrix: row `r` of the left operand
    against row `j` of the weights. -/
private theorem mm_rows {φ₁ φ₂ : FTy} (ht : (⟨2, ![N, K]⟩ : Shape).Transposes [1, 0] ⟨2, ![K, N]⟩)
    (A : FVec Ideal ⟨2, ![1024, K]⟩ φ₁) (W : FVec Ideal ⟨2, ![N, K]⟩ φ₂) (r : Fin 1024) (j : Fin N) :
    matmul d none A (transpose ⟨2, ![K, N]⟩ [1, 0] W ht) (constant ⟨2, ![1024, N]⟩ .f32 0x00000000#32) (ix2 r j)
      = ∑ c : Fin K, A (ix2 r c) * W (ix2 j c) := by
  rw [PlainDot.matmul_zero_apply d hlb hrb hln hrn hlc hrc hr hs]
  refine Finset.sum_congr rfl fun c _ => ?_
  congr 1
  exact transpose_apply [1, 0] W ht (ix2 c j) (ix2 j c) fun b => match b with
    | ⟨0, _⟩ => rfl
    | ⟨1, _⟩ => rfl

/-- One dense layer as the kernel computes it (the product with the transposed weights into the zero splat, plus
    the bias repeated down the rows) is the specification's dense layer on row `r` of the input. -/
private theorem dense_row (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![1024, N]⟩)
    (A : FVec Ideal ⟨2, ![1024, K]⟩ .bf16) (W : FVec Ideal ⟨2, ![N, K]⟩ .bf16) (b : FVec Ideal ⟨1, ![N]⟩ .f32)
    (r : Fin 1024) (j : Fin N) :
    addf (matmul d none A (transpose ⟨2, ![K, N]⟩ [1, 0] W ht) (constant ⟨2, ![1024, N]⟩ .f32 0x00000000#32))
        (broadcastTo ⟨2, ![1024, N]⟩ (shapeCast ⟨2, ![1, N]⟩ b hc) hb) (ix2 r j)
      = dense (fun j c => W (ix2 j c)) (fun j => b (ix1 j)) (fun c => A (ix2 r c)) j := by
  rw [bias_row hc hb, mm_rows d hlb hrb hln hrn hlc hrc hr hs ht]
  rfl

end Dense

/-- Two matrices laid side by side along their columns: row `r` is the two rows side by side. -/
private theorem concat_row (u v : FVec Ideal S1024x256 .f32) (r : Fin 1024) (c : Fin 512) :
    concatenate S1024x512 1 [⟨S1024x256, u⟩, ⟨S1024x256, v⟩] concatenates_S1024x256_S1024x256_S1024x512_d1 (ix2 r c)
      = sideBySide (fun o => u (ix2 r o)) (fun o => v (ix2 r o)) c := by
  unfold sideBySide
  split
  · next h =>
    exact concatenate_pair_apply_left 1 u v concatenates_S1024x256_S1024x256_S1024x512_d1 (ix2 r c) rfl
      (ix2 r ⟨c.val, h⟩) fun b => match b with
        | ⟨0, _⟩ => rfl
        | ⟨1, _⟩ => rfl
  · next h =>
    exact concatenate_pair_apply_right 1 u v concatenates_S1024x256_S1024x256_S1024x512_d1 (ix2 r c) rfl rfl
      (ix2 r ⟨c.val - 256, by have := c.isLt; omega⟩)
      (fun b hb => match b, hb with
        | ⟨0, _⟩, _ => rfl
        | ⟨1, _⟩, hb => absurd rfl hb)
      (by show (c.val - 256) + 256 = c.val; omega)

/-- One perspective's front activations: the finished sum plus the front bias, clipped. -/
private theorem front_row (p : FVec Ideal S1024x256 .f32) (b1 : FVec Ideal S256 .f32) (r : Fin 1024) (o : Fin 256) :
    maximumf (addf p (broadcastTo S1024x256 (shapeCast S1x256 b1 shapeCasts_S256_S1x256) broadcasts_S1x256_S1024x256))
        (broadcast S1024x256 (Scalar.ofBits (F := Ideal) .f32 0x00000000#32)) (ix2 r o)
      = front (fun o => p (ix2 r o)) (fun o => b1 (ix1 o)) o := by
  rw [relu_apply, bias_row shapeCasts_S256_S1x256 broadcasts_S1x256_S1024x256]
  rfl

/-- The stored output block at row `r`: the rest of the network on row `r` of the two finished sums. -/
theorem tail_apply (v29 : Vec Ideal S256 .f32) (v31 v36 : Vec Ideal S1024x256 .f32) (v43 : Vec Ideal S32x512 .f32)
    (v47 : Vec Ideal S32 .f32) (v54 : Vec Ideal S32x32 .f32) (v58 : Vec Ideal S32 .f32) (v65 : Vec Ideal S1x32 .f32)
    (v69 : Vec Ideal S1 .f32) (r : Fin 1024) :
    k0_pay6 (k0_pay7 v29 v31 v36 v43 v47 v54 v58 v65) v69 (ix2 r (0 : Fin 1))
      = head (fun o => v31 (ix2 r o)) (fun o => v36 (ix2 r o)) (fun o => v29 (ix1 o))
          (fun j c => v43 (ix2 j c)) (fun j => v47 (ix1 j)) (fun i j => v54 (ix2 i j)) (fun i => v58 (ix1 i))
          (fun a i => v65 (ix2 a i)) (fun a => v69 (ix1 a)) := by
  unfold k0_pay6 k0_pay7 head
  refine congrArg Ideal.logistic ?_
  -- the last dense layer, on the clipped output of the one before
  refine (dense_row dot_S1024x32_S32x1_S1024x1_1_0_0_1_n_n rfl rfl rfl rfl rfl rfl rfl rfl
    transposes_S1x32_p1_0_S32x1 shapeCasts_S1_S1x1 broadcasts_S1x1_S1024x1 _ _ v69 r 0).trans ?_
  refine congrArg (fun f => dense _ _ f 0) (funext fun i => ?_)
  refine (relu_apply _ (ix2 r i)).trans (congrArg relu ?_)
  -- the middle dense layer
  refine (dense_row dot_S1024x32_S32x32_S1024x32_1_0_0_1_n_n rfl rfl rfl rfl rfl rfl rfl rfl
    transposes_S32x32_p1_0_S32x32 shapeCasts_S32_S1x32 broadcasts_S1x32_S1024x32 _ _ v58 r i).trans ?_
  refine congrArg (fun f => dense _ _ f i) (funext fun j => ?_)
  refine (relu_apply _ (ix2 r j)).trans (congrArg relu ?_)
  -- the first dense layer, on the two perspectives' activations side by side
  refine (dense_row dot_S1024x512_S512x32_S1024x32_1_0_0_1_n_n rfl rfl rfl rfl rfl rfl rfl rfl
    transposes_S32x512_p1_0_S512x32 shapeCasts_S32_S1x32 broadcasts_S1x32_S1024x32 _ _ v47 r j).trans ?_
  refine congrArg (fun f => dense _ _ f j) (funext fun c => ?_)
  refine (concat_row _ _ r c).trans ?_
  exact congrArg₂ (fun a b => sideBySide a b c) (funext fun o => front_row v31 v29 r o)
    (funext fun o => front_row v36 v29 r o)

end Cert.KernelIdeal.Body

end
-- ==== Proof.Fold.lean ====
/-
  The two running sums after any grid point, at the ideal values.

  Point `n` (batch tile `n / 88`, feature tile `n % 88`) adds to element `(r, o)` of the running sum of
  perspective `p` the tile's share of the front layer's dot product,
  `∑ j < 512, x (1024 · (n / 88) + r, p, 512 · (n % 88) + j) · W1 (o, 512 · (n % 88) + j)`,
  and the first point of a batch tile starts from zero. So after point `t` the sum holds zero plus the shares
  of feature tiles `0 … t % 88` of the batch tile `t / 88`; after a batch tile's last point that is the whole dot
  product over the 45056 features, by regrouping a finite sum on the extended reals.
-/
import proofs.«172723_j43525198578243_1_alg».proof.Proof.Gen.KernelIdeal.Value
import proofs.«172723_j43525198578243_1_alg».proof.Proof.Pieces
import proofs.«172723_j43525198578243_1_alg».proof.Proof.Blocks
import proofs.«172723_j43525198578243_1_alg».proof.Proof.KTail
import proofs.«172723_j43525198578243_1_alg».proof.Proof.Spec

set_option maxRecDepth 16384

open scoped BigOperators

noncomputable section

namespace Cert.KernelIdeal.Fold

open Idealize.ShloMosaic Idealize.ShloMosaic.TcCoe Idealize.ShloMosaic.ValueIdx Idealize.SL.Sem
open Cert.KernelIdeal Cert.KernelIdeal.Gen Cert.KernelIdeal.Blocks Cert.KernelIdeal.Value

variable (m : (ℓ : Loc nD τ sig) → Buf (Elt Ideal) ℓ)

/-- The input read at natural-number coordinates (zero outside the array). -/
def xN (c : Dev nD) (a p f : ℕ) : EReal :=
  if h : a < 2048 ∧ p < 2 ∧ f < 45056 then xarr m c (ix3 (⟨a, h.1⟩ : Fin 2048) (⟨p, h.2.1⟩ : Fin 2) (⟨f, h.2.2⟩ : Fin 45056)) else 0

/-- The front weights read at natural-number coordinates (zero outside the array). -/
def wN (c : Dev nD) (o f : ℕ) : EReal :=
  if h : o < 256 ∧ f < 45056 then w1arr m c (ix2 (⟨o, h.1⟩ : Fin 256) (⟨f, h.2⟩ : Fin 45056)) else 0

theorem xN_eq (c : Dev nD) (a : Fin 2048) (p : Fin 2) (f : Fin 45056) : xN m c a.val p.val f.val = xarr m c (ix3 a p f) := by
  unfold xN; rw [dif_pos ⟨a.isLt, p.isLt, f.isLt⟩]

theorem wN_eq (c : Dev nD) (o : Fin 256) (f : Fin 45056) : wN m c o.val f.val = w1arr m c (ix2 o f) := by
  unfold wN; rw [dif_pos ⟨o.isLt, f.isLt⟩]

/-- What point `n` adds to element `i` of the running sum of perspective `p`. -/
def share (c : Dev nD) (p : ℕ) (n : ℕ) (i : S1024x256.Idx) : EReal :=
  ∑ j : Fin 512, xN m c (1024 * (n / 88) + (i 0).val) p (512 * (n % 88) + j.val) * wN m c (i 1).val (512 * (n % 88) + j.val)

/-- The point's product of its two blocks is its share (perspective 0). -/
theorem step0 (c : Dev nD) (t : Fin cfg0.N) (acc : Vec Ideal S1024x256 .f32) (i : S1024x256.Idx) :
    k0_pay4 (xblk m c t) (w1blk m c t) acc i = acc i + share m c 0 t.val i := by
  obtain ⟨r, o, rfl⟩ : ∃ (r : Fin 1024) (o : Fin 256), i = ix2 r o := ⟨i 0, i 1, eq_ix2 i⟩
  have hN : t.val < 176 := lt_of_lt_of_eq t.isLt (show cfg0.N = 176 from N_0)
  rw [Body.acc0_apply]
  refine congrArg (acc (ix2 r o) + ·) (Finset.sum_congr rfl fun j _ => ?_)
  have hR : 1024 * (t.val / 88) + r.val < 2048 := by have := r.isLt; omega
  have hf : 512 * (t.val % 88) + j.val < 45056 := by have := j.isLt; omega
  rw [xblk_apply m c t r 0 j ⟨_, hR⟩ ⟨_, hf⟩ rfl rfl, w1blk_apply m c t o j ⟨_, hf⟩ rfl]
  exact congrArg₂ (· * ·) (xN_eq m c ⟨_, hR⟩ 0 ⟨_, hf⟩).symm (wN_eq m c o ⟨_, hf⟩).symm

/-- The point's product of its two blocks is its share (perspective 1). -/
theorem step1 (c : Dev nD) (t : Fin cfg0.N) (acc : Vec Ideal S1024x256 .f32) (i : S1024x256.Idx) :
    k0_pay5 (xblk m c t) (w1blk m c t) acc i = acc i + share m c 1 t.val i := by
  obtain ⟨r, o, rfl⟩ : ∃ (r : Fin 1024) (o : Fin 256), i = ix2 r o := ⟨i 0, i 1, eq_ix2 i⟩
  have hN : t.val < 176 := lt_of_lt_of_eq t.isLt (show cfg0.N = 176 from N_0)
  rw [Body.acc1_apply]
  refine congrArg (acc (ix2 r o) + ·) (Finset.sum_congr rfl fun j _ => ?_)
  have hR : 1024 * (t.val / 88) + r.val < 2048 := by have := r.isLt; omega
  have hf : 512 * (t.val % 88) + j.val < 45056 := by have := j.isLt; omega
  rw [xblk_apply m c t r 1 j ⟨_, hR⟩ ⟨_, hf⟩ rfl rfl, w1blk_apply m c t o j ⟨_, hf⟩ rfl]
  exact congrArg₂ (· * ·) (xN_eq m c ⟨_, hR⟩ 1 ⟨_, hf⟩).symm (wN_eq m c o ⟨_, hf⟩).symm

/-- What point `n` leaves in the first running sum over what the point before left: its share added; a batch
    tile's first point starts from zero. -/
theorem scAt0_first (c : Dev nD) (n : ℕ) (hb : n < cfg0.N) (h0 : n % 88 = 0) (acc : Vec Ideal S1024x256 .f32)
    (i : S1024x256.Idx) : scAt0_0 m c n hb acc i = 0 + share m c 0 n i := by
  have hN : n < 176 := lt_of_lt_of_eq hb (show cfg0.N = 176 from N_0)
  have h1 : ¬n % 88 = 87 := by omega
  unfold scAt0_0
  rw [dif_pos h0, dif_neg h1, Pieces.sumA0]
  exact (step0 m c ⟨n, hb⟩ _ i).trans (congrArg (· + share m c 0 n i) (Body.zero0_apply i))

theorem scAt0_later (c : Dev nD) (n : ℕ) (hb : n < cfg0.N) (h0 : ¬n % 88 = 0) (acc : Vec Ideal S1024x256 .f32)
    (i : S1024x256.Idx) : scAt0_0 m c n hb acc i = acc i + share m c 0 n i := by
  unfold scAt0_0
  rw [dif_neg h0]
  by_cases h1 : n % 88 = 87
  · rw [dif_pos h1, Pieces.sumC0]; exact step0 m c ⟨n, hb⟩ acc i
  · rw [dif_neg h1, Pieces.sumB0]; exact step0 m c ⟨n, hb⟩ acc i

theorem scAt1_first (c : Dev nD) (n : ℕ) (hb : n < cfg0.N) (h0 : n % 88 = 0) (acc : Vec Ideal S1024x256 .f32)
    (i : S1024x256.Idx) : scAt0_1 m c n hb acc i = 0 + share m c 1 n i := by
  have hN : n < 176 := lt_of_lt_of_eq hb (show cfg0.N = 176 from N_0)
  have h1 : ¬n % 88 = 87 := by omega
  unfold scAt0_1
  rw [dif_pos h0, dif_neg h1, Pieces.sumA1]
  exact (step1 m c ⟨n, hb⟩ _ i).trans (congrArg (· + share m c 1 n i) (Body.zero1_apply i))

theorem scAt1_later (c : Dev nD) (n : ℕ) (hb : n < cfg0.N) (h0 : ¬n % 88 = 0) (acc : Vec Ideal S1024x256 .f32)
    (i : S1024x256.Idx) : scAt0_1 m c n hb acc i = acc i + share m c 1 n i := by
  unfold scAt0_1
  rw [dif_neg h0]
  by_cases h1 : n % 88 = 87
  · rw [dif_pos h1, Pieces.sumC1]; exact step1 m c ⟨n, hb⟩ acc i
  · rw [dif_neg h1, Pieces.sumB1]; exact step1 m c ⟨n, hb⟩ acc i

/-- The first running sum after point `t`: zero plus the shares of the batch tile's feature tiles up to `t`'s. -/
theorem sum0_after (c : Dev nD) (t : Fin cfg0.N) (i : S1024x256.Idx) :
    (outsAt0 m c t.val t.isLt).2.1 i
      = 0 + ∑ s ∈ Finset.range (t.val % 88 + 1), share m c 0 (88 * (t.val / 88) + s) i := by
  rw [soutsAt0_0_eq]
  refine Pipeline.accAt_add_apply _ _ (fun _ => (0 : EReal)) (share m c 0) (88 * (t.val / 88)) 87
    (fun h i => scAt0_first m c _ h (Nat.mul_mod_right 88 _) _ i)
    (fun n h acc i hlt hle => scAt0_later m c n h (by omega) acc i) (t.val % 88) (by omega) _ i

/-- The second running sum after point `t`. -/
theorem sum1_after (c : Dev nD) (t : Fin cfg0.N) (i : S1024x256.Idx) :
    (outsAt0 m c t.val t.isLt).2.2 i
      = 0 + ∑ s ∈ Finset.range (t.val % 88 + 1), share m c 1 (88 * (t.val / 88) + s) i := by
  rw [soutsAt0_1_eq]
  refine Pipeline.accAt_add_apply _ _ (fun _ => (0 : EReal)) (share m c 1) (88 * (t.val / 88)) 87
    (fun h i => scAt1_first m c _ h (Nat.mul_mod_right 88 _) _ i)
    (fun n h acc i hlt hle => scAt1_later m c n h (by omega) acc i) (t.val % 88) (by omega) _ i

/-- After a batch tile's last point a running sum is the front layer's whole dot product. -/
theorem shares_total (c : Dev nD) (p : Fin 2) (q : ℕ) (hq : q < 2) (r : Fin 1024) (o : Fin 256) (R : Fin 2048)
    (hR : R.val = 1024 * q + r.val) :
    0 + ∑ s ∈ Finset.range 88, share m c p.val (88 * q + s) (ix2 r o)
      = ∑ f : Fin 45056, xarr m c (ix3 R p f) * w1arr m c (ix2 o f) := by
  rw [zero_add]
  have e : ∀ f : Fin 45056, xarr m c (ix3 R p f) * w1arr m c (ix2 o f) = xN m c R.val p.val f.val * wN m c o.val f.val :=
    fun f => congrArg₂ (· * ·) (xN_eq m c R p f).symm (wN_eq m c o f).symm
  rw [Finset.sum_congr rfl fun f _ => e f, Nnue.sum_tiles (fun f => xN m c R.val p.val f * wN m c o.val f)]
  refine Finset.sum_congr rfl fun s hs => ?_
  have hs' : s < 88 := Finset.mem_range.mp hs
  unfold share
  have e1 : (88 * q + s) / 88 = q := by omega
  have e2 : (88 * q + s) % 88 = s := by omega
  rw [e1, e2, hR]

end Cert.KernelIdeal.Fold

end
-- ==== Proof.Final.lean ====
/-
  The kernel's result array, at the ideal values, is the network of `Nnue.net` on the argument arrays.

  Only a batch tile's last point writes its output block back, and the block it wrote holds, at row `r`, the
  rest of the network applied to row `r` of the two running sums — by then the whole front-layer dot products of
  row `1024 · (t / 88) + r` of the input. The two batch tiles' blocks cover the 2048 rows of the result.
-/
import proofs.«172723_j43525198578243_1_alg».proof.Proof.Fold

set_option maxRecDepth 16384

open scoped BigOperators

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Value Cert.KernelIdeal.Fold

variable (m : (ℓ : Loc nD τ sig) → Buf (Elt Ideal) ℓ) (ρ : Dev nD → PrngReg)

/-- The network on the arrays as the region finds them. -/
abbrev result (c : Dev nD) : Buf (Elt Ideal) ((c : Thread nD τ).loc main_v0) :=
  Nnue.net (xarr m c) (w1arr m c) (b1arr m c) (w2arr m c) (b2arr m c) (w3arr m c) (b3arr m c) (w4arr m c) (b4arr m c)

/-- At a batch tile's last point the first running sum, as the body has just updated it, is what the point leaves. -/
theorem sum0_last (c : Dev nD) (t : Fin cfg0.N) (h0 : ¬t.val % 88 = 0) (h1 : t.val % 88 = 87) :
    (outsAt0 m c t.val t.isLt).2.1
      = k0_pay4 (xblk m c t) (w1blk m c t) (outsAt0 m c (t.val - 1) (Nat.lt_of_le_of_lt (Nat.sub_le _ _) t.isLt)).2.1 := by
  rw [outsAt0_C m c t h0 h1]
  dsimp only
  exact Pieces.sumC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _

theorem sum1_last (c : Dev nD) (t : Fin cfg0.N) (h0 : ¬t.val % 88 = 0) (h1 : t.val % 88 = 87) :
    (outsAt0 m c t.val t.isLt).2.2
      = k0_pay5 (xblk m c t) (w1blk m c t) (outsAt0 m c (t.val - 1) (Nat.lt_of_le_of_lt (Nat.sub_le _ _) t.isLt)).2.2 := by
  rw [outsAt0_C m c t h0 h1]
  dsimp only
  exact Pieces.sumC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _

/-- Row `r` of the block a batch tile's last point stores is row `1024 · (t / 88) + r` of the network's result. -/
theorem stored_row (c : Dev nD) (t : Fin cfg0.N) (h0 : ¬t.val % 88 = 0) (h1 : t.val % 88 = 87) (r : Fin 1024) (R : Fin 2048)
    (hR : R.val = 1024 * (t.val / 88) + r.val) :
    k0_pay6 (k0_pay7 (b1blk m c t)
        (k0_pay4 (xblk m c t) (w1blk m c t) (outsAt0 m c (t.val - 1) (Nat.lt_of_le_of_lt (Nat.sub_le _ _) t.isLt)).2.1)
        (k0_pay5 (xblk m c t) (w1blk m c t) (outsAt0 m c (t.val - 1) (Nat.lt_of_le_of_lt (Nat.sub_le _ _) t.isLt)).2.2)
        (w2blk m c t) (b2blk m c t) (w3blk m c t) (b3blk m c t) (w4blk m c t)) (b4blk m c t) (ix2 r (0 : Fin 1))
      = Nnue.netRow (xarr m c) (w1arr m c) (b1arr m c) (w2arr m c) (b2arr m c) (w3arr m c) (b3arr m c) (w4arr m c) (b4arr m c) R := by
  have hN : t.val < 176 := lt_of_lt_of_eq t.isLt (show cfg0.N = 176 from N_0)
  rw [Body.tail_apply, ← sum0_last m c t h0 h1, ← sum1_last m c t h0 h1, b1blk_eq, w2blk_eq, b2blk_eq, w3blk_eq, b3blk_eq, w4blk_eq, b4blk_eq]
  unfold Nnue.netRow
  have e0 : (fun o : Fin 256 => (outsAt0 m c t.val t.isLt).2.1 (ix2 r o))
      = fun o => ∑ f : Fin 45056, xarr m c (ix3 R (0 : Fin 2) f) * w1arr m c (ix2 o f) := funext fun o => by
    rw [sum0_after m c t (ix2 r o), h1]
    exact shares_total m c 0 (t.val / 88) (by omega) r o R hR
  have e1 : (fun o : Fin 256 => (outsAt0 m c t.val t.isLt).2.2 (ix2 r o))
      = fun o => ∑ f : Fin 45056, xarr m c (ix3 R (1 : Fin 2) f) * w1arr m c (ix2 o f) := funext fun o => by
    rw [sum1_after m c t (ix2 r o), h1]
    exact shares_total m c 1 (t.val / 88) (by omega) r o R hR
  rw [e0, e1]

/-- What a flushing point writes back is its block of the network's result. -/
theorem flushed_eq (c : Dev nD) (t : Fin cfg0.N) (hf : (cfg0.win 9).flush t = true) :
    (dats m 0 c).flushed 9 t = ((cfg0.win 9).blk t).view.read (Elt Ideal) (result m c) := by
  have h1 : t.val % 88 = 87 := (flush0_9 t).mp hf
  have h0 : ¬t.val % 88 = 0 := by omega
  have hN : t.val < 176 := lt_of_lt_of_eq t.isLt (show cfg0.N = 176 from N_0)
  rw [flushed9_C m c t h0 h1, Pieces.outC]
  funext y
  obtain ⟨r, z, rfl⟩ : ∃ (r : Fin 1024) (z : Fin 1), y = ix2 r z := ⟨y 0, y 1, eq_ix2 y⟩
  obtain rfl : z = 0 := Subsingleton.elim _ _
  obtain ⟨-, -, -, -, -, -, -, -, -, -, -, -, -, -, -, e0, e1⟩ := idx_facts t
  refine (stored_row m c t h0 h1 r ⟨1024 * (t.val / 88) + r.val, by have := r.isLt; omega⟩ rfl).trans ?_
  rw [View.read_apply, cast_eq]
  unfold result Nnue.net
  refine congrArg (Nnue.netRow (xarr m c) (w1arr m c) (b1arr m c) (w2arr m c) (b2arr m c) (w3arr m c) (b3arr m c) (w4arr m c) (b4arr m c)) (Fin.ext ?_)
  show 1024 * (t.val / 88) + r.val = win0_9.index t (0 : Fin 2) * 1024 + 1 * r.val
  omega

/-- An index of the result is in point `t`'s block iff each coordinate is in the block's range on its axis. -/
theorem mem_blk (t : Fin cfg0.N) (i : S2048x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v0).slice (win0_9.rect t)).set ↔ _
  rw [View.set_slice_whole, Rect.mem_set_unit]
  exact Iff.rfl

/-- Every row of the result lies in the block its batch tile's last point writes back. -/
theorem cover (i : S2048x1.Idx) :
    ∃ t : Fin cfg0.N, (cfg0.win 9).flush t = true ∧ i ∈ ((cfg0.win 9).blk t).view.set := by
  have hi0 : (i 0).val < 2048 := (i 0).isLt
  have hi1 : (i 1).val < 1 := (i 1).isLt
  have hN : 88 * ((i 0).val / 1024) + 87 < cfg0.N := by rw [show cfg0.N = 176 from N_0]; omega
  refine ⟨⟨88 * ((i 0).val / 1024) + 87, hN⟩, (flush0_9 _).mpr (by show (88 * ((i 0).val / 1024) + 87) % 88 = 87; omega), ?_⟩
  rw [mem_blk]
  obtain ⟨-, -, -, -, -, -, -, -, -, -, -, -, -, -, -, e0, e1⟩ := idx_facts ⟨88 * ((i 0).val / 1024) + 87, hN⟩
  have e0' : win0_9.index ⟨88 * ((i 0).val / 1024) + 87, hN⟩ (0 : Fin 2) = (88 * ((i 0).val / 1024) + 87) / 88 := e0
  intro a
  match a with
  | ⟨0, _⟩ =>
    show win0_9.index ⟨88 * ((i 0).val / 1024) + 87, hN⟩ (0 : Fin 2) * 1024 ≤ (i 0).val
      ∧ (i 0).val < win0_9.index ⟨88 * ((i 0).val / 1024) + 87, hN⟩ (0 : Fin 2) * 1024 + 1024
    rw [e0']; omega
  | ⟨1, _⟩ =>
    show win0_9.index ⟨88 * ((i 0).val / 1024) + 87, hN⟩ (1 : Fin 2) * 1 ≤ (i 1).val
      ∧ (i 1).val < win0_9.index ⟨88 * ((i 0).val / 1024) + 87, hN⟩ (1 : Fin 2) * 1 + 1
    rw [e1]; omega

/-- The result array after the run is the network on the arrays the region finds. -/
theorem final (c : Dev nD) : (dats m 0 c).arrAt 9 cfg0.N = result m c :=
  (dats m 0 c).arrAt_eq_of_cover 9 (result m c) (fun t hf => flushed_eq m c t hf) cover

/-- Every weakly fair execution of the idealized kernel ends with the result array at the network of the arguments,
    the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Final

end
-- ==== Proof.RefNet.lean ====
/-
  The reference program's result is the network of `Nnue.net`, element by element, at the ideal values.

  Row `b` of the reference's result is the logistic function — spelled there as `1 / (1 + exp (-z))` — of the last
  dense layer's output `z`; each dense layer is a matrix product with a transposed weight matrix plus a broadcast
  bias, clipped at zero by a maximum with the zero splat; the front layer's two matrix products contract the
  whole feature axis of the two perspectives, sliced out of the input and reshaped; the concatenation lays the
  two perspectives' 256 activations side by side. Each stage is read at an index by the generated read-back
  lemmas; the concatenation is read by hand.
-/
import proofs.«172723_j43525198578243_1_alg».proof.Proof.Gen.ReferenceIdeal.Read
import proofs.«172723_j43525198578243_1_alg».proof.Proof.Spec
import Idealize.ShloMosaic.Lib.Pipeline.Value
import Idealize.ShloMosaic.Lib.ValueIdx
import Idealize.ShloMosaic.PureOps.Ideal.Laws

open scoped BigOperators

noncomputable section

namespace Cert.ReferenceIdeal.Net

open Idealize.ShloMosaic Idealize.ShloMosaic.ValueIdx Cert.ReferenceIdeal Cert.ReferenceIdeal.Gen Cert.ReferenceIdeal.Read Cert.Nnue

/-! ## The splat constants -/

/-- The word of `1.0` at `f32` denotes the extended real `1`. -/
private theorem one_f32 : Ideal.ofBits .f32 0x3F800000#32 = 1 := IdealRules.sign_bit.ideal_onePat .f32

/-- The zero splat the front layer's first clip compares with is `0` everywhere. -/
private theorem zero0 (i : S2048x256.Idx) : val_main_call0_v0 (F := Ideal) i = 0 := by
  rw [val_main_call0_v0_apply, val_main_call0_cst_apply]; exact Ideal.ofBits_zero_f32

/-- So is the second clip's. -/
private theorem zero1 (i : S2048x256.Idx) : val_main_call1_v0 (F := Ideal) i = 0 := by
  rw [val_main_call1_v0_apply, val_main_call1_cst_apply]; exact Ideal.ofBits_zero_f32

/-- So is the first hidden layer's. -/
private theorem zero2 (i : S2048x32.Idx) : val_main_call2_v0 (F := Ideal) i = 0 := by
  rw [val_main_call2_v0_apply, val_main_call2_cst_apply]; exact Ideal.ofBits_zero_f32

/-- So is the second hidden layer's. -/
private theorem zero3 (i : S2048x32.Idx) : val_main_call3_v0 (F := Ideal) i = 0 := by
  rw [val_main_call3_v0_apply, val_main_call3_cst_apply]; exact Ideal.ofBits_zero_f32

/-- The one splat in the logistic's denominator is `1` everywhere. -/
private theorem one34 (i : S2048x1.Idx) : val_main_v34 (F := Ideal) i = 1 := by
  rw [val_main_v34_apply, val_main_cst_apply]; exact one_f32

/-- The one splat in the logistic's numerator is `1` everywhere. -/
private theorem one36 (i : S2048x1.Idx) : val_main_v36 (F := Ideal) i = 1 := by
  rw [val_main_v36_apply, val_main_cst_0_apply]; exact one_f32

/-! ## The front layer -/

/-- Perspective 0 of row `b`, sliced out and reshaped: position `b * 45056 + f` of the flattened slice is feature `f`
    of row `b`. -/
private theorem v1_at (x0 : (⟨S2048x2x45056, .f32⟩ : BufTy).Contents (Elt Ideal)) (b : Fin 2048) (f : Fin 45056) :
    val_main_v1 (F := Ideal) x0 (ix2 b f) = x0 (ix3 b (0 : Fin 2) f) := by
  rw [val_main_v1_apply, val_main_v0_apply]
  congr 1
  have hb := b.isLt
  have hf := f.isLt
  funext a
  apply Fin.ext
  match a with
  | ⟨0, _⟩ => show (b.val * 45056 + f.val) / 45056 = b.val; omega
  | ⟨1, _⟩ => rfl
  | ⟨2, _⟩ => show (b.val * 45056 + f.val) % 45056 = f.val; omega

/-- Perspective 1 likewise. -/
private theorem v8_at (x0 : (⟨S2048x2x45056, .f32⟩ : BufTy).Contents (Elt Ideal)) (b : Fin 2048) (f : Fin 45056) :
    val_main_v8 (F := Ideal) x0 (ix2 b f) = x0 (ix3 b (1 : Fin 2) f) := by
  rw [val_main_v8_apply, val_main_v7_apply]
  congr 1
  have hb := b.isLt
  have hf := f.isLt
  funext a
  apply Fin.ext
  match a with
  | ⟨0, _⟩ => show (b.val * 45056 + f.val) / 45056 = b.val; omega
  | ⟨1, _⟩ => rfl
  | ⟨2, _⟩ => show (b.val * 45056 + f.val) % 45056 = f.val; omega

/-- The first matrix product: unit `o` of row `b` is the dot product of perspective 0 with weight row `o`. -/
private theorem v2_at (x0 : (⟨S2048x2x45056, .f32⟩ : BufTy).Contents (Elt Ideal)) (x1 : (⟨S256x45056, .f32⟩ : BufTy).Contents (Elt Ideal))
    (b : Fin 2048) (o : Fin 256) :
    val_main_v2 (F := Ideal) x0 x1 (ix2 b o) = ∑ f : Fin 45056, x0 (ix3 b (0 : Fin 2) f) * x1 (ix2 o f) := by
  rw [val_main_v2_apply]
  refine Finset.sum_congr rfl fun k _ => ?_
  have e1 : lidx_main_v2 (ix2 b o) k = ix2 b k := funext fun a => Fin.ext (by match a with | ⟨0, _⟩ => rfl | ⟨1, _⟩ => rfl)
  have e2 : ridx_main_v2 (ix2 b o) k = ix2 o k := funext fun a => Fin.ext (by match a with | ⟨0, _⟩ => rfl | ⟨1, _⟩ => rfl)
  rw [e1, e2, v1_at]

/-- The second matrix product: the same with perspective 1. -/
private theorem v9_at (x0 : (⟨S2048x2x45056, .f32⟩ : BufTy).Contents (Elt Ideal)) (x1 : (⟨S256x45056, .f32⟩ : BufTy).Contents (Elt Ideal))
    (b : Fin 2048) (o : Fin 256) :
    val_main_v9 (F := Ideal) x0 x1 (ix2 b o) = ∑ f : Fin 45056, x0 (ix3 b (1 : Fin 2) f) * x1 (ix2 o f) := by
  rw [val_main_v9_apply]
  refine Finset.sum_congr rfl fun k _ => ?_
  have e1 : lidx_main_v9 (ix2 b o) k = ix2 b k := funext fun a => Fin.ext (by match a with | ⟨0, _⟩ => rfl | ⟨1, _⟩ => rfl)
  have e2 : ridx_main_v9 (ix2 b o) k = ix2 o k := funext fun a => Fin.ext (by match a with | ⟨0, _⟩ => rfl | ⟨1, _⟩ => rfl)
  rw [e1, e2, v8_at]

/-- The front bias broadcast over the rows reads the bias of the unit. -/
private theorem v4_at (x2 : (⟨S256, .f32⟩ : BufTy).Contents (Elt Ideal)) (b : Fin 2048) (o : Fin 256) :
    val_main_v4 (F := Ideal) x2 (ix2 b o) = x2 (ix1 o) := by
  rw [val_main_v4_apply, val_main_v3_apply]
  congr 1
  funext a
  match a with
  | ⟨0, _⟩ => rfl

/-- Its second copy likewise. -/
private theorem v11_at (x2 : (⟨S256, .f32⟩ : BufTy).Contents (Elt Ideal)) (b : Fin 2048) (o : Fin 256) :
    val_main_v11 (F := Ideal) x2 (ix2 b o) = x2 (ix1 o) := by
  rw [val_main_v11_apply, val_main_v10_apply]
  congr 1
  funext a
  match a with
  | ⟨0, _⟩ => rfl

/-- Perspective 0's front activations of row `b`. -/
private theorem v6_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (b : Fin 2048) (o : Fin 256) :
    val_main_v6 (F := Ideal) x0 x1 x2 (ix2 b o)
      = front (fun o => ∑ f : Fin 45056, x0 (ix3 b (0 : Fin 2) f) * x1 (ix2 o f)) (fun o => x2 (ix1 o)) o := by
  rw [val_main_v6_apply, val_main_v5_apply, v2_at, v4_at, zero0]
  rfl

/-- Perspective 1's. -/
private theorem v13_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (b : Fin 2048) (o : Fin 256) :
    val_main_v13 (F := Ideal) x0 x1 x2 (ix2 b o)
      = front (fun o => ∑ f : Fin 45056, x0 (ix3 b (1 : Fin 2) f) * x1 (ix2 o f)) (fun o => x2 (ix1 o)) o := by
  rw [val_main_v13_apply, val_main_v12_apply, v9_at, v11_at, zero1]
  rfl

/-! ## The concatenation -/

/-- The two perspectives' activations side by side: a column below 256 reads the first piece at that column, a column
    from 256 on reads the second piece at the column less 256. -/
private theorem v14_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (b : Fin 2048) (c : Fin 512) :
    val_main_v14 (F := Ideal) x0 x1 x2 (ix2 b c)
      = sideBySide (fun o => val_main_v6 (F := Ideal) x0 x1 x2 (ix2 b o)) (fun o => val_main_v13 (F := Ideal) x0 x1 x2 (ix2 b o)) c := by
  unfold val_main_v14 sideBySide
  by_cases h : c.val < 256
  · rw [dif_pos h]
    exact concatenate_pair_apply_left (t := S2048x512) (s₁ := S2048x256) (s₂ := S2048x256) 1 _ _
      concatenates_S2048x256_S2048x256_S2048x512_d1 (ix2 b c) rfl (ix2 b ⟨c.val, h⟩)
      (fun a => match a with | ⟨0, _⟩ => rfl | ⟨1, _⟩ => rfl)
  · rw [dif_neg h]
    exact concatenate_pair_apply_right (t := S2048x512) (s₁ := S2048x256) (s₂ := S2048x256) 1 _ _
      concatenates_S2048x256_S2048x256_S2048x512_d1 (ix2 b c) rfl rfl
      (ix2 b ⟨c.val - 256, by have := c.isLt; omega⟩)
      (fun a => match a with | ⟨0, _⟩ => fun _ => rfl | ⟨1, _⟩ => fun ha => absurd rfl ha)
      (by show c.val - 256 + 256 = c.val; omega)

/-! ## The dense layers -/

/-- The first dense layer: unit `j` of row `b` clips the dot product of the 512 activations with weight row `j`,
    read through the transposition, plus the bias. -/
private theorem v20_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (x3 : (⟨S32x512, .f32⟩ : BufTy).Contents (Elt Ideal))
    (x4 : (⟨S32, .f32⟩ : BufTy).Contents (Elt Ideal)) (b : Fin 2048) (j : Fin 32) :
    val_main_v20 (F := Ideal) x0 x1 x2 x3 x4 (ix2 b j)
      = relu (dense (fun j c => x3 (ix2 j c)) (fun j => x4 (ix1 j))
          (fun c => val_main_v14 (F := Ideal) x0 x1 x2 (ix2 b c)) j) := by
  rw [val_main_v20_apply, val_main_v19_apply, val_main_v16_apply, val_main_v18_apply, val_main_v17_apply, zero2]
  have eb : idx_main_v17 (idx_main_v18 (ix2 b j)) = ix1 j := funext fun a => by match a with | ⟨0, _⟩ => rfl
  have es : ∀ k : Fin 512, val_main_v14 (F := Ideal) x0 x1 x2 (lidx_main_v16 (ix2 b j) k) * val_main_v15 (F := Ideal) x3 (ridx_main_v16 (ix2 b j) k)
      = val_main_v14 (F := Ideal) x0 x1 x2 (ix2 b k) * x3 (ix2 j k) := fun k => by
    have e1 : lidx_main_v16 (ix2 b j) k = ix2 b k := funext fun a => Fin.ext (by match a with | ⟨0, _⟩ => rfl | ⟨1, _⟩ => rfl)
    have e2 : idx_main_v15 (ridx_main_v16 (ix2 b j) k) = ix2 j k := funext fun a => Fin.ext (by match a with | ⟨0, _⟩ => rfl | ⟨1, _⟩ => rfl)
    rw [val_main_v15_apply, e1, e2]
  rw [eb, Finset.sum_congr rfl fun k _ => es k]
  rfl

/-- The second dense layer, on the 32 activations of the first. -/
private theorem v26_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (x3 : (⟨S32x512, .f32⟩ : BufTy).Contents (Elt Ideal))
    (x4 : (⟨S32, .f32⟩ : BufTy).Contents (Elt Ideal)) (x5 : (⟨S32x32, .f32⟩ : BufTy).Contents (Elt Ideal))
    (x6 : (⟨S32, .f32⟩ : BufTy).Contents (Elt Ideal)) (b : Fin 2048) (i : Fin 32) :
    val_main_v26 (F := Ideal) x0 x1 x2 x3 x4 x5 x6 (ix2 b i)
      = relu (dense (fun i j => x5 (ix2 i j)) (fun i => x6 (ix1 i))
          (fun j => val_main_v20 (F := Ideal) x0 x1 x2 x3 x4 (ix2 b j)) i) := by
  rw [val_main_v26_apply, val_main_v25_apply, val_main_v22_apply, val_main_v24_apply, val_main_v23_apply, zero3]
  have eb : idx_main_v23 (idx_main_v24 (ix2 b i)) = ix1 i := funext fun a => by match a with | ⟨0, _⟩ => rfl
  have es : ∀ k : Fin 32, val_main_v20 (F := Ideal) x0 x1 x2 x3 x4 (lidx_main_v22 (ix2 b i) k) * val_main_v21 (F := Ideal) x5 (ridx_main_v22 (ix2 b i) k)
      = val_main_v20 (F := Ideal) x0 x1 x2 x3 x4 (ix2 b k) * x5 (ix2 i k) := fun k => by
    have e1 : lidx_main_v22 (ix2 b i) k = ix2 b k := funext fun a => Fin.ext (by match a with | ⟨0, _⟩ => rfl | ⟨1, _⟩ => rfl)
    have e2 : idx_main_v21 (ridx_main_v22 (ix2 b i) k) = ix2 i k := funext fun a => Fin.ext (by match a with | ⟨0, _⟩ => rfl | ⟨1, _⟩ => rfl)
    rw [val_main_v21_apply, e1, e2]
  rw [eb, Finset.sum_congr rfl fun k _ => es k]
  rfl

/-- The last dense layer, not clipped: the one output unit of row `b`. -/
private theorem v31_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (x3 : (⟨S32x512, .f32⟩ : BufTy).Contents (Elt Ideal))
    (x4 : (⟨S32, .f32⟩ : BufTy).Contents (Elt Ideal)) (x5 : (⟨S32x32, .f32⟩ : BufTy).Contents (Elt Ideal))
    (x6 : (⟨S32, .f32⟩ : BufTy).Contents (Elt Ideal)) (x7 : (⟨S1x32, .f32⟩ : BufTy).Contents (Elt Ideal))
    (x8 : (⟨S1, .f32⟩ : BufTy).Contents (Elt Ideal)) (b : Fin 2048) :
    val_main_v31 (F := Ideal) x0 x1 x2 x3 x4 x5 x6 x7 x8 (ix2 b (0 : Fin 1))
      = dense (fun a i => x7 (ix2 a i)) (fun a => x8 (ix1 a))
          (fun i => val_main_v26 (F := Ideal) x0 x1 x2 x3 x4 x5 x6 (ix2 b i)) (0 : Fin 1) := by
  rw [val_main_v31_apply, val_main_v28_apply, val_main_v30_apply, val_main_v29_apply]
  have eb : idx_main_v29 (idx_main_v30 (ix2 b (0 : Fin 1))) = ix1 (0 : Fin 1) := funext fun a => by match a with | ⟨0, _⟩ => rfl
  have es : ∀ k : Fin 32, val_main_v26 (F := Ideal) x0 x1 x2 x3 x4 x5 x6 (lidx_main_v28 (ix2 b (0 : Fin 1)) k) * val_main_v27 (F := Ideal) x7 (ridx_main_v28 (ix2 b (0 : Fin 1)) k)
      = val_main_v26 (F := Ideal) x0 x1 x2 x3 x4 x5 x6 (ix2 b k) * x7 (ix2 (0 : Fin 1) k) := fun k => by
    have e1 : lidx_main_v28 (ix2 b (0 : Fin 1)) k = ix2 b k := funext fun a => Fin.ext (by match a with | ⟨0, _⟩ => rfl | ⟨1, _⟩ => rfl)
    have e2 : idx_main_v27 (ridx_main_v28 (ix2 b (0 : Fin 1)) k) = ix2 (0 : Fin 1) k := funext fun a => Fin.ext (by match a with | ⟨0, _⟩ => rfl | ⟨1, _⟩ => rfl)
    rw [val_main_v27_apply, e1, e2]
  rw [eb, Finset.sum_congr rfl fun k _ => es k]
  rfl

/-! ## The logistic function -/

/-- The reference's quotient of the one splat by the one splat plus the exponential of the negated output is the
    logistic function of the output. -/
private theorem v37_at (x0 : (⟨S2048x2x45056, .f32⟩ : BufTy).Contents (Elt Ideal)) (x1 : (⟨S256x45056, .f32⟩ : BufTy).Contents (Elt Ideal))
    (x2 : (⟨S256, .f32⟩ : BufTy).Contents (Elt Ideal)) (x3 : (⟨S32x512, .f32⟩ : BufTy).Contents (Elt Ideal))
    (x4 : (⟨S32, .f32⟩ : BufTy).Contents (Elt Ideal)) (x5 : (⟨S32x32, .f32⟩ : BufTy).Contents (Elt Ideal))
    (x6 : (⟨S32, .f32⟩ : BufTy).Contents (Elt Ideal)) (x7 : (⟨S1x32, .f32⟩ : BufTy).Contents (Elt Ideal))
    (x8 : (⟨S1, .f32⟩ : BufTy).Contents (Elt Ideal)) (i : S2048x1.Idx) :
    val_main_v37 (F := Ideal) x0 x1 x2 x3 x4 x5 x6 x7 x8 i
      = Ideal.logistic (val_main_v31 (F := Ideal) x0 x1 x2 x3 x4 x5 x6 x7 x8 i) := by
  rw [val_main_v37_apply, val_main_v35_apply, val_main_v33_apply, val_main_v32_apply, one36, one34]
  generalize val_main_v31 (F := Ideal) x0 x1 x2 x3 x4 x5 x6 x7 x8 i = z
  rfl

/-! ## The whole network -/

/-- The reference's last stage is the network, as whole arrays. -/
theorem ref_eq_net (x0 : (⟨S2048x2x45056, .f32⟩ : BufTy).Contents (Elt Ideal)) (x1 : (⟨S256x45056, .f32⟩ : BufTy).Contents (Elt Ideal)) (x2 : (⟨S256, .f32⟩ : BufTy).Contents (Elt Ideal)) (x3 : (⟨S32x512, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    val_main_v37 (F := Ideal) x0 x1 x2 x3 x4 x5 x6 x7 x8 = net x0 x1 x2 x3 x4 x5 x6 x7 x8 := by
  funext i
  obtain ⟨b, z, rfl⟩ : ∃ (b : Fin 2048) (z : Fin 1), i = ix2 b z := ⟨i 0, i 1, eq_ix2 i⟩
  obtain rfl : z = 0 := Subsingleton.elim _ _
  rw [v37_at, v31_at]
  simp only [v26_at, v20_at, v14_at, v6_at, v13_at]
  rfl

end Cert.ReferenceIdeal.Net

end
-- ==== Proof.lean ====
/-
  The certificate of the dual-perspective evaluation network: the kernel against its plain reference, over the
  extended reals.

  Both programs compute, for each of 2048 batch rows, the same function of the nine argument arrays
  (`Nnue.net`, Proof/Spec.lean): a shared 256 × 45056 front layer applied to the row's two perspectives, bias and
  clipping at zero, the two results side by side, then dense layers 512 → 32 → 32 → 1 and the logistic function.
  The kernel walks a grid of 2 batch tiles × 88 feature tiles and keeps the front layer's dot products as
  running sums, adding one feature tile's share per point (Proof/Fold.lean); at a batch tile's last point it
  applies the rest of the network to the finished sums and stores the tile's 1024 results (Proof/KTail.lean,
  Proof/Final.lean). The reference contracts the whole feature axis at once (Proof/RefNet.lean). The two agree
  because a sum over 45056 features is the sum over 88 tiles of the tiles' sums — addition on the extended reals is
  commutative and associative, so the inputs' finiteness is not used — and because the kernel's logistic
  operation and the reference's `1 / (1 + exp (-z))` denote one function there. The ideal pass rewrote nothing,
  so the kernel's idealization is preserved trivially; the three frames are the generated ones, the reference's
  being its generated run with the result dropped.
-/
import proofs.«172723_j43525198578243_1_alg».proof.Defs
import proofs.«172723_j43525198578243_1_alg».proof.Proof.Gen.Kernel
import proofs.«172723_j43525198578243_1_alg».proof.Proof.Gen.Kernel.Skeleton
import proofs.«172723_j43525198578243_1_alg».proof.Proof.Gen.Kernel.Launch
import proofs.«172723_j43525198578243_1_alg».proof.Proof.Gen.Kernel.Points
import proofs.«172723_j43525198578243_1_alg».proof.Proof.Gen.Kernel.Frame
import proofs.«172723_j43525198578243_1_alg».proof.Proof.Gen.KernelIdeal
import proofs.«172723_j43525198578243_1_alg».proof.Proof.Gen.KernelIdeal.Skeleton
import proofs.«172723_j43525198578243_1_alg».proof.Proof.Gen.KernelIdeal.Launch
import proofs.«172723_j43525198578243_1_alg».proof.Proof.Gen.KernelIdeal.Points
import proofs.«172723_j43525198578243_1_alg».proof.Proof.Gen.KernelIdeal.Frame
import proofs.«172723_j43525198578243_1_alg».proof.Proof.Gen.ReferenceIdeal
import proofs.«172723_j43525198578243_1_alg».proof.Proof.Gen.Pre_finite_inputs
import proofs.«172723_j43525198578243_1_alg».proof.Proof.Gen.KernelIdeal.Value
import proofs.«172723_j43525198578243_1_alg».proof.Proof.Gen.ReferenceIdeal.Run
import proofs.«172723_j43525198578243_1_alg».proof.Proof.Gen.ReferenceIdeal.Read
import proofs.«172723_j43525198578243_1_alg».proof.Proof.Final
import proofs.«172723_j43525198578243_1_alg».proof.Proof.RefNet
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so nothing is owed. -/
theorem preserves : Cert.preserves_Kernel_KernelIdeal := trivial

/-- From memories that agree on the nine arguments both idealized programs end with the network's result. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v37_eq (F := Ideal) _ _ _ _ _ _ _ _ _).trans
    (Cert.ReferenceIdeal.Net.ref_eq_net _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
